-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S4096 : Shape := ⟨1, ![4096]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x16384 .f32) (main_arg1 : FVec F S4096x16384 .f32) (main_arg2 : FVec F S4096x16384 .f32) (main_arg3 : FVec F S4096x16384 .f32) (main_arg4 : FVec F S4096 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_v13 main_v16
-- ==== Kernel.lean ====
abbrev S4096x16384 : Shape := ⟨2, ![4096, 16384]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S_ : Shape := ⟨0, ![]⟩

abbrev nBuf : Space → Nat
  | .hbm => 26
  | .vmem => 11
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096, .f32⟩
  | .hbm, ⟨5, _⟩ => ⟨S4096x1, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .i1⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x16384.size a
  hwx0_0 : ∀ i : grid0.Coords, EltTy.bits .f32 = 32 ∨ (Rect.block (s := S4096x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x16384.size a
  hwx0_1 : ∀ i : grid0.Coords, EltTy.bits .f32 = 32 ∨ (Rect.block (s := S4096x16384) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x16384.size a
  hwx0_2 : ∀ i : grid0.Coords, EltTy.bits .f32 = 32 ∨ (Rect.block (s := S4096x16384) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x16384.size a
  hwx0_3 : ∀ i : grid0.Coords, EltTy.bits .f32 = 32 ∨ (Rect.block (s := S4096x16384) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x16384 : Shape := ⟨2, ![4096, 16384]⟩
abbrev S4096 : Shape := ⟨1, ![4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .f32⟩
  | .hbm, ⟨3, _⟩ => ⟨S4096x16384, .f32⟩
  | .hbm, ⟨4, _⟩ => ⟨S4096, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.Body.lean ====
/-
  What one grid point's body leaves behind, as values.

  The body keeps a running column of 256 row sums in a scratch buffer. At the first column tile of a row block it
  stores the zero column and then adds the tile's row sums to it; at every later tile it adds the tile's row sums to
  what the tile before left; at the last tile it also copies the column into the output block. Each statement below
  says so for one of the three control cases, for any float instance: the scratch (and, in the last case, the output
  block) ends holding the body's one arithmetic term `k0_pay2` of the four input blocks and the column found there.
-/
import proofs.«110048_j74131135529095_1_alg».proof.Proof.Gen.KernelIdeal.Frame
import Idealize.ShloMosaic.Lib.Pipeline.Value
import Idealize.ShloMosaic.Lib.Tactic

noncomputable section

namespace Cert.PhaseLoss.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A later tile that is not the last (case B): the column `xs0` found in the scratch is replaced by the body's
    term of the four blocks and `xs0`. -/
theorem scratch_B (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x1 .f32) (h6 : a6.IsWhole) (a7 : Memref sig .tc .vmem S256x1 .f32) (h7 : a7.IsWhole) (hc0 : ¬cond0_0 i) (hc1 : ¬cond0_1 i) (x0 x1 x2 x3 : Vec F S256x2048 .f32) (xs0 : Vec F S256x1 .f32) :
    sout0_B_0 c i a2 h2 a3 h3 a4 h4 a5 h5 a6 h6 a7 h7 hc0 hc1 x0 x1 x2 x3 xs0 = k0_pay2 x0 x2 x1 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S256x2048) hz, View.ld_unit_zero (S := S256x1) hz]

/-- The last tile (case C), the scratch: the same update of the column found there. -/
theorem scratch_C (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x1 .f32) (h6 : a6.IsWhole) (a7 : Memref sig .tc .vmem S256x1 .f32) (h7 : a7.IsWhole) (hc0 : ¬cond0_0 i) (hc1 : cond0_1 i) (x0 x1 x2 x3 : Vec F S256x2048 .f32) (xs0 : Vec F S256x1 .f32) :
    sout0_C_0 c i a2 h2 a3 h3 a4 h4 a5 h5 a6 h6 a7 h7 hc0 hc1 x0 x1 x2 x3 xs0 = k0_pay2 x0 x2 x1 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x2048) hz, View.ld_unit_zero (S := S256x1) hz]

/-- The last tile (case C), the output block: the scratch is read back after its update and stored whole, so the
    block holds the updated column. -/
theorem out_C (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x1 .f32) (h6 : a6.IsWhole) (a7 : Memref sig .tc .vmem S256x1 .f32) (h7 : a7.IsWhole) (hc0 : ¬cond0_0 i) (hc1 : cond0_1 i) (x0 x1 x2 x3 : Vec F S256x2048 .f32) (xs0 : Vec F S256x1 .f32) :
    out0_C_4 c i a2 h2 a3 h3 a4 h4 a5 h5 a6 h6 a7 h7 hc0 hc1 x0 x1 x2 x3 xs0 = k0_pay2 x0 x2 x1 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readCov_unit_zero (S := S256x1) _ hz, View.readAt_eq_ld, h2.read_unread, h3.read_unread, h4.read_unread, h5.read_unread,
    h7.read_unread, View.ld_unit_zero (S := S256x2048) hz, View.ld_unit_zero (S := S256x1) hz]

/-- The first tile of a row block (case A): the zero column is stored, read back, and updated; the update is the
    later of the two stores and covers the buffer. -/
theorem scratch_A (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x1 .f32) (h6 : a6.IsWhole) (a7 : Memref sig .tc .vmem S256x1 .f32) (h7 : a7.IsWhole) (hc0 : cond0_0 i) (hc1 : ¬cond0_1 i) (x0 x1 x2 x3 : Vec F S256x2048 .f32) :
    sout0_A_0 c i a2 h2 a3 h3 a4 h4 a5 h5 a6 h6 a7 h7 hc0 hc1 x0 x1 x2 x3 = k0_pay2 x0 x2 x1 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread, h5.read_unread,
    h7.read_unread, View.ld_unit_zero (S := S256x2048) hz, View.ld_unit_zero (S := S256x1) hz]

end Cert.PhaseLoss.Body

end
-- ==== Proof.LibColumn.lean ====
/-
  A column vector and its flat form, read at an index.

  A shape cast keeps the row-major position of every element. Between `[a]` and `[a, 1]` the position of row `i` is
  `i` in both, so casting either way reads row `i` at row `i`: the column that a row reduction with kept dimensions
  produces, and the flat vector a host program reshapes such a column to.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Payload.lean ====
/-
  The body's two arithmetic terms read at an entry, over the extended reals.

  The reset term is the zero column. The update term adds, to row `r` of the column it is given, the sum over the
  block's 2048 columns of `(x0 - x2)² + (x1 - x3)²` along row `r`: the lane sum of a [256, 2048] block at row `r`
  is the sum of that row's entries, and recasting the 256 row sums as a [256, 1] column keeps row `r` at row `r`.
-/
import proofs.«110048_j74131135529095_1_alg».proof.Proof.Gen.KernelIdeal.Skeleton
import proofs.«110048_j74131135529095_1_alg».proof.Proof.LibColumn
import Idealize.ShloMosaic.PureOps.Ideal.Laws
import Idealize.ShloMosaic.Lib.ValueIdx
import Idealize.ShloMosaic.Lib.Pipeline.Value

noncomputable section

namespace Cert.PhaseLoss.Payload

open Idealize.ShloMosaic Idealize.ShloMosaic.ValueIdx
open Cert.KernelIdeal Cert.KernelIdeal.Gen

/-- The reset column is zero at every entry. -/
theorem zeroCol_apply (j : S256x1.Idx) : (k0_pay1 (F := Ideal)) j = 0 := by
  unfold k0_pay1
  rw [shapeCast_self]
  exact Ideal.ofBits_zero_f32

/-- The insertion of column `k` into the row index `r` is the entry `(r, k)`. -/
theorem lift_row (r : Fin 256) (k : Fin 2048) : reduces_S256x2048_S256.lift (ix1 r) k = ix2 r k :=
  funext fun a => Fin.ext (by match a with | ⟨0, _⟩ => rfl | ⟨1, _⟩ => rfl)

/-- The update term at row `r`: the given column's row `r` plus the row's 2048 squared phase errors. -/
theorem update_apply (x0 x2 x1 x3 : Vec Ideal S256x2048 .f32) (a : Vec Ideal S256x1 .f32) (r : Fin 256) :
    k0_pay2 (F := Ideal) x0 x2 x1 x3 a (ix2 r (0 : Fin 1))
      = a (ix2 r 0) + ∑ k : Fin 2048, ((x0 (ix2 r k) - x2 (ix2 r k)) * (x0 (ix2 r k) - x2 (ix2 r k))
          + (x1 (ix2 r k) - x3 (ix2 r k)) * (x1 (ix2 r k) - x3 (ix2 r k))) := by
  unfold k0_pay2
  dsimp only
  rw [shapeCast_self]
  refine congrArg (a (ix2 r 0) + ·) ?_
  refine (shapeCast_a_a1_apply (a := 256) _ _ r 0).trans ?_
  refine (Ideal.multiReduction_add_single _ 0x00000000#32 reduces_S256x2048_S256 (.inl rfl) rfl (ix1 r)).trans ?_
  refine Finset.sum_congr rfl fun (k : Fin 2048) _ => ?_
  exact congrArg (fun j => (x0 j - x2 j) * (x0 j - x2 j) + (x1 j - x3 j) * (x1 j - x3 j)) (lift_row r k)

end Cert.PhaseLoss.Payload

end
-- ==== Proof.Spec.lean ====
/-
  The mathematics both programs compute, free of either program.

  For four arrays `x0 x1 x2 x3` over [4096, 16384] (predicted sine, predicted cosine, true sine, true cosine) the
  squared phase error at an entry is `(x0 - x2)² + (x1 - x3)²`. One program sums it along a row in eight column
  tiles of 2048, one tile after another, and divides the row total by 16384; the other sums the two squares along
  the row separately, divides each by 16384 and adds. Over the extended reals addition is a commutative monoid, so a
  row total does not depend on how it is tiled or split, and division by the positive real 16384 is multiplication by
  a nonnegative real, which distributes over a sum of two extended reals whatever they are. Nothing here needs the
  entries to be finite.
-/
import Idealize.ShloMosaic.PureOps.Ideal
import Idealize.ShloMosaic.PureOps.Ideal.Laws
import Idealize.ShloMosaic.Lib.ValueIdx

noncomputable section

namespace Cert.PhaseLoss

open Idealize.ShloMosaic Idealize.ShloMosaic.ValueIdx

/-- The [4096, 16384] arrays' shape. -/
abbrev Big : Shape := ⟨2, ![4096, 16384]⟩

/-- The pattern `0x46800000` denotes the real 16384. -/
theorem ofBits_16384 : Ideal.ofBits .f32 0x46800000#32 = ((16384 : ℝ) : EReal) := by
  simp [Ideal.ofBits, Ideal.ieee, -EReal.coe_mul]; norm_num

/-- Division by 16384 distributes over a sum of two extended reals: it is the product with the nonnegative real
    1/16384, and such a product distributes even where a summand is infinite. -/
theorem div_add_16384 (X Y : EReal) :
    Ideal.div (X + Y) (Ideal.ofBits .f32 0x46800000#32)
      = Ideal.div X (Ideal.ofBits .f32 0x46800000#32) + Ideal.div Y (Ideal.ofBits .f32 0x46800000#32) := by
  rw [ofBits_16384, Ideal.div_coe (by norm_num), Ideal.div_coe (by norm_num), Ideal.div_coe (by norm_num)]
  exact EReal.right_distrib_of_nonneg_of_ne_top (by exact_mod_cast (by norm_num : (0 : ℝ) ≤ 1 / 16384))
    (EReal.coe_ne_top _) X Y

section
variable (x0 x1 x2 x3 : Big.Idx → EReal)

/-- The squared phase error at one entry. -/
def sq (i : Big.Idx) : EReal := (x0 i - x2 i) * (x0 i - x2 i) + (x1 i - x3 i) * (x1 i - x3 i)

/-- The same over natural coordinates (zero off the array), so that a row can be summed over ranges of columns. -/
def sqN (b d : ℕ) : EReal := if h : b < 4096 ∧ d < 16384 then sq x0 x1 x2 x3 (ix2 ⟨b, h.1⟩ ⟨d, h.2⟩) else 0

theorem sqN_eq (b : Fin 4096) (d : Fin 16384) : sqN x0 x1 x2 x3 b.val d.val = sq x0 x1 x2 x3 (ix2 b d) := by
  unfold sqN; rw [dif_pos ⟨b.isLt, d.isLt⟩]

/-- Row `b`'s sum over all 16384 columns, as a sum over the column index. -/
theorem rowTotal (b : Fin 4096) :
    ∑ d ∈ Finset.range 16384, sqN x0 x1 x2 x3 b.val d = ∑ k : Fin 16384, sq x0 x1 x2 x3 (ix2 b k) := by
  rw [← Fin.sum_univ_eq_sum_range (fun d => sqN x0 x1 x2 x3 b.val d) 16384]
  exact Finset.sum_congr rfl fun k _ => sqN_eq x0 x1 x2 x3 b k

end

/-- One more column tile: the sum over the first `2048 (j + 1)` columns is the sum over the first `2048 j` plus the
    tile's own 2048 columns. -/
theorem prefix_succ (f : ℕ → EReal) (j : ℕ) :
    ∑ d ∈ Finset.range (2048 * (j + 1)), f d
      = ∑ d ∈ Finset.range (2048 * j), f d + ∑ k : Fin 2048, f (2048 * j + k.val) := by
  rw [Nat.mul_succ, Finset.sum_range_add, Fin.sum_univ_eq_sum_range (fun k => f (2048 * j + k))]

/-- The first tile alone. -/
theorem prefix_first (f : ℕ → EReal) :
    ∑ d ∈ Finset.range (2048 * (0 + 1)), f d = ∑ k : Fin 2048, f (2048 * 0 + k.val) := by
  rw [prefix_succ, Nat.mul_zero, Finset.range_zero, Finset.sum_empty, zero_add]

/-- THE PER-SAMPLE LAW. A row's total squared phase error divided by 16384 is the row's mean squared sine error plus
    its mean squared cosine error, each a host sum started from the zero word. -/
theorem mean_split (x0 x1 x2 x3 : Big.Idx → EReal) (b : Fin 4096) :
    Ideal.div (∑ k : Fin 16384, sq x0 x1 x2 x3 (ix2 b k)) (Ideal.ofBits .f32 0x46800000#32)
      = Ideal.div (Ideal.ofBits .f32 0x00000000#32 + ∑ k : Fin 16384, (x0 (ix2 b k) - x2 (ix2 b k)) * (x0 (ix2 b k) - x2 (ix2 b k)))
            (Ideal.ofBits .f32 0x46800000#32)
        + Ideal.div (Ideal.ofBits .f32 0x00000000#32 + ∑ k : Fin 16384, (x1 (ix2 b k) - x3 (ix2 b k)) * (x1 (ix2 b k) - x3 (ix2 b k)))
            (Ideal.ofBits .f32 0x46800000#32) := by
  rw [Ideal.ofBits_zero_f32, zero_add, zero_add, ← div_add_16384, ← Finset.sum_add_distrib]
  rfl

end Cert.PhaseLoss

end
-- ==== Proof.Acc.lean ====
/-
  What the scratch column and the output block hold after each grid point, over the extended reals.

  The grid is 16 row blocks by 8 column tiles, visited row block by row block: point `n` is row block `n / 8`, column
  tile `n % 8`, and a window's block there holds rows `256 (n / 8) + r` and columns `2048 (n % 8) + k` of its array.
  After point `n`, row `r` of the scratch column is the sum of row `256 (n / 8) + r`'s squared phase errors over its
  first `2048 (n % 8 + 1)` columns: the first tile of a row block starts from the zero column, every later tile adds
  its 2048 columns to what the tile before left. At a row block's last tile the output block receives the column,
  which by then holds the sums over all 16384 columns.
-/
import proofs.«110048_j74131135529095_1_alg».proof.Proof.Body
import proofs.«110048_j74131135529095_1_alg».proof.Proof.Payload
import proofs.«110048_j74131135529095_1_alg».proof.Proof.Spec

noncomputable section

namespace Cert.PhaseLoss.Acc

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four [4096, 16384] arrays as the region finds them: predicted sine and cosine, true sine and cosine. -/
abbrev sinP (c : Dev nD) : FVec Ideal S4096x16384 .f32 := V m c main_arg0
abbrev cosP (c : Dev nD) : FVec Ideal S4096x16384 .f32 := V m c main_arg1
abbrev sinT (c : Dev nD) : FVec Ideal S4096x16384 .f32 := V m c main_arg2
abbrev cosT (c : Dev nD) : FVec Ideal S4096x16384 .f32 := V m c main_arg3

/-- Their [256, 2048] blocks at a grid point. -/
abbrev blk0 (c : Dev nD) (t : Fin cfg0.N) : FVec Ideal S256x2048 .f32 := iblk m c 0 t
abbrev blk1 (c : Dev nD) (t : Fin cfg0.N) : FVec Ideal S256x2048 .f32 := iblk m c 1 t
abbrev blk2 (c : Dev nD) (t : Fin cfg0.N) : FVec Ideal S256x2048 .f32 := iblk m c 2 t
abbrev blk3 (c : Dev nD) (t : Fin cfg0.N) : FVec Ideal S256x2048 .f32 := iblk m c 3 t

/-- Each input window's block index at point `t` is (row block `t / 8`, column tile `t % 8`): decided over the grid. -/
theorem idx0 : ∀ t : Fin cfg0.N, win0_0.index t (0 : Fin 2) = t.val / 8 ∧ win0_0.index t (1 : Fin 2) = t.val % 8 :=
  (by decide +kernel : ∀ t : Fin grid0.N, _)
theorem idx1 : ∀ t : Fin cfg0.N, win0_1.index t (0 : Fin 2) = t.val / 8 ∧ win0_1.index t (1 : Fin 2) = t.val % 8 :=
  (by decide +kernel : ∀ t : Fin grid0.N, _)
theorem idx2 : ∀ t : Fin cfg0.N, win0_2.index t (0 : Fin 2) = t.val / 8 ∧ win0_2.index t (1 : Fin 2) = t.val % 8 :=
  (by decide +kernel : ∀ t : Fin grid0.N, _)
theorem idx3 : ∀ t : Fin cfg0.N, win0_3.index t (0 : Fin 2) = t.val / 8 ∧ win0_3.index t (1 : Fin 2) = t.val % 8 :=
  (by decide +kernel : ∀ t : Fin grid0.N, _)

/-! ## A block's entry is its array's entry: a block's coordinate is block index × block size + the coordinate inside -/

theorem blk0_apply (c : Dev nD) (t : Fin cfg0.N) (r : Fin 256) (k : Fin 2048)
    (hb : 256 * (t.val / 8) + r.val < 4096) (hd : 2048 * (t.val % 8) + k.val < 16384) :
    blk0 m c t (ix2 r k) = sinP m c (ix2 ⟨256 * (t.val / 8) + r.val, hb⟩ ⟨2048 * (t.val % 8) + k.val, hd⟩) := by
  have hi := idx0 t
  unfold blk0 iblk
  rw [View.read_apply]
  show V m c main_arg0 _ = V m c main_arg0 _
  congr 1
  funext a
  apply Fin.ext
  match a with
  | ⟨0, _⟩ => show win0_0.index t 0 * 256 + 1 * r.val = 256 * (t.val / 8) + r.val; rw [hi.1]; omega
  | ⟨1, _⟩ => show win0_0.index t 1 * 2048 + 1 * k.val = 2048 * (t.val % 8) + k.val; rw [hi.2]; omega

theorem blk1_apply (c : Dev nD) (t : Fin cfg0.N) (r : Fin 256) (k : Fin 2048)
    (hb : 256 * (t.val / 8) + r.val < 4096) (hd : 2048 * (t.val % 8) + k.val < 16384) :
    blk1 m c t (ix2 r k) = cosP m c (ix2 ⟨256 * (t.val / 8) + r.val, hb⟩ ⟨2048 * (t.val % 8) + k.val, hd⟩) := by
  have hi := idx1 t
  unfold blk1 iblk
  rw [View.read_apply]
  show V m c main_arg1 _ = V m c main_arg1 _
  congr 1
  funext a
  apply Fin.ext
  match a with
  | ⟨0, _⟩ => show win0_1.index t 0 * 256 + 1 * r.val = 256 * (t.val / 8) + r.val; rw [hi.1]; omega
  | ⟨1, _⟩ => show win0_1.index t 1 * 2048 + 1 * k.val = 2048 * (t.val % 8) + k.val; rw [hi.2]; omega

theorem blk2_apply (c : Dev nD) (t : Fin cfg0.N) (r : Fin 256) (k : Fin 2048)
    (hb : 256 * (t.val / 8) + r.val < 4096) (hd : 2048 * (t.val % 8) + k.val < 16384) :
    blk2 m c t (ix2 r k) = sinT m c (ix2 ⟨256 * (t.val / 8) + r.val, hb⟩ ⟨2048 * (t.val % 8) + k.val, hd⟩) := by
  have hi := idx2 t
  unfold blk2 iblk
  rw [View.read_apply]
  show V m c main_arg2 _ = V m c main_arg2 _
  congr 1
  funext a
  apply Fin.ext
  match a with
  | ⟨0, _⟩ => show win0_2.index t 0 * 256 + 1 * r.val = 256 * (t.val / 8) + r.val; rw [hi.1]; omega
  | ⟨1, _⟩ => show win0_2.index t 1 * 2048 + 1 * k.val = 2048 * (t.val % 8) + k.val; rw [hi.2]; omega

theorem blk3_apply (c : Dev nD) (t : Fin cfg0.N) (r : Fin 256) (k : Fin 2048)
    (hb : 256 * (t.val / 8) + r.val < 4096) (hd : 2048 * (t.val % 8) + k.val < 16384) :
    blk3 m c t (ix2 r k) = cosT m c (ix2 ⟨256 * (t.val / 8) + r.val, hb⟩ ⟨2048 * (t.val % 8) + k.val, hd⟩) := by
  have hi := idx3 t
  unfold blk3 iblk
  rw [View.read_apply]
  show V m c main_arg3 _ = V m c main_arg3 _
  congr 1
  funext a
  apply Fin.ext
  match a with
  | ⟨0, _⟩ => show win0_3.index t 0 * 256 + 1 * r.val = 256 * (t.val / 8) + r.val; rw [hi.1]; omega
  | ⟨1, _⟩ => show win0_3.index t 1 * 2048 + 1 * k.val = 2048 * (t.val % 8) + k.val; rw [hi.2]; omega

/-- The squared phase error of the four arrays over natural coordinates. -/
abbrev errN (c : Dev nD) (b d : ℕ) : EReal := sqN (sinP m c) (cosP m c) (sinT m c) (cosT m c) b d

/-- One tile's contribution to row `r`: the 2048 squared phase errors of row `256 (t / 8) + r` from column `2048 (t % 8)` on. -/
theorem tile_sum (c : Dev nD) (t : Fin cfg0.N) (r : Fin 256) :
    ∑ k : Fin 2048, ((blk0 m c t (ix2 r k) - blk2 m c t (ix2 r k)) * (blk0 m c t (ix2 r k) - blk2 m c t (ix2 r k))
        + (blk1 m c t (ix2 r k) - blk3 m c t (ix2 r k)) * (blk1 m c t (ix2 r k) - blk3 m c t (ix2 r k)))
      = ∑ k : Fin 2048, errN m c (256 * (t.val / 8) + r.val) (2048 * (t.val % 8) + k.val) := by
  have hN : t.val < 128 := lt_of_lt_of_eq t.isLt (show cfg0.N = 128 from N_0)
  refine Finset.sum_congr rfl fun (k : Fin 2048) _ => ?_
  have hb : 256 * (t.val / 8) + r.val < 4096 := by have := r.isLt; omega
  have hd : 2048 * (t.val % 8) + k.val < 16384 := by have := k.isLt; omega
  rw [blk0_apply m c t r k hb hd, blk1_apply m c t r k hb hd, blk2_apply m c t r k hb hd, blk3_apply m c t r k hb hd]
  exact (sqN_eq (sinP m c) (cosP m c) (sinT m c) (cosT m c) ⟨_, hb⟩ ⟨_, hd⟩).symm

/-- The first tile of a row block: the scratch column is the first 2048 columns' sum. -/
theorem first_tile (c : Dev nD) (t : Fin cfg0.N) (h0 : t.val % 8 = 0) (h1 : ¬t.val % 8 = 7) (r : Fin 256) :
    (outsAt0 m c t.val t.isLt).2 (ix2 r (0 : Fin 1))
      = ∑ d ∈ Finset.range (2048 * (t.val % 8 + 1)), errN m c (256 * (t.val / 8) + r.val) d := by
  rw [outsAt0_A m c t h0 h1]
  dsimp only
  refine (congrFun (Body.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun h => h1 ((hcond0_1 t).mp h)) (blk0 m c t) (blk1 m c t) (blk2 m c t) (blk3 m c t)) (ix2 r 0)).trans ?_
  refine (Payload.update_apply (blk0 m c t) (blk2 m c t) (blk1 m c t) (blk3 m c t) (k0_pay1 (F := Ideal)) r).trans ?_
  rw [Payload.zeroCol_apply, zero_add, tile_sum m c t r, h0]
  exact (prefix_first _).symm

/-- THE ACCUMULATION: after point `n`, row `r` of the scratch column is the sum over the first `2048 (n % 8 + 1)`
    columns of row `256 (n / 8) + r` — by induction on the point. -/
theorem scratch_eq (c : Dev nD) : ∀ (n : ℕ) (h : n < cfg0.N) (r : Fin 256),
    (outsAt0 m c n h).2 (ix2 r (0 : Fin 1))
      = ∑ d ∈ Finset.range (2048 * (n % 8 + 1)), errN m c (256 * (n / 8) + r.val) d := by
  intro n
  induction n with
  | zero => exact fun h r => first_tile m c ⟨0, h⟩ rfl (by dsimp only; omega) r
  | succ n ih =>
    intro h r
    by_cases h0 : (n + 1) % 8 = 0
    · exact first_tile m c ⟨n + 1, h⟩ h0 (by dsimp only; omega) r
    · have e1 : n / 8 = (n + 1) / 8 := by omega
      have e2 : n % 8 + 1 = (n + 1) % 8 := by omega
      by_cases h1 : (n + 1) % 8 = 7
      · rw [outsAt0_C m c ⟨n + 1, h⟩ h0 h1]
        dsimp only
        refine (congrFun (Body.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun h' => h0 ((hcond0_0 ⟨n + 1, h⟩).mp h')) ((hcond0_1 ⟨n + 1, h⟩).mpr h1) (blk0 m c ⟨n + 1, h⟩) (blk1 m c ⟨n + 1, h⟩) (blk2 m c ⟨n + 1, h⟩) (blk3 m c ⟨n + 1, h⟩)
          (outsAt0 m c n (Nat.lt_of_succ_lt h)).2) (ix2 r 0)).trans ?_
        refine (Payload.update_apply (blk0 m c ⟨n + 1, h⟩) (blk2 m c ⟨n + 1, h⟩) (blk1 m c ⟨n + 1, h⟩) (blk3 m c ⟨n + 1, h⟩) (outsAt0 m c n (Nat.lt_of_succ_lt h)).2 r).trans ?_
        rw [ih (Nat.lt_of_succ_lt h) r, tile_sum m c ⟨n + 1, h⟩ r]
        dsimp only
        rw [e1, e2]
        exact (prefix_succ _ _).symm
      · rw [outsAt0_B m c ⟨n + 1, h⟩ h0 h1]
        dsimp only
        refine (congrFun (Body.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _)
          (fun h' => h0 ((hcond0_0 ⟨n + 1, h⟩).mp h')) (fun h' => h1 ((hcond0_1 ⟨n + 1, h⟩).mp h')) (blk0 m c ⟨n + 1, h⟩) (blk1 m c ⟨n + 1, h⟩) (blk2 m c ⟨n + 1, h⟩) (blk3 m c ⟨n + 1, h⟩)
          (outsAt0 m c n (Nat.lt_of_succ_lt h)).2) (ix2 r 0)).trans ?_
        refine (Payload.update_apply (blk0 m c ⟨n + 1, h⟩) (blk2 m c ⟨n + 1, h⟩) (blk1 m c ⟨n + 1, h⟩) (blk3 m c ⟨n + 1, h⟩) (outsAt0 m c n (Nat.lt_of_succ_lt h)).2 r).trans ?_
        rw [ih (Nat.lt_of_succ_lt h) r, tile_sum m c ⟨n + 1, h⟩ r]
        dsimp only
        rw [e1, e2]
        exact (prefix_succ _ _).symm

/-- At a row block's last tile the output block is the scratch column (the body copies it there). -/
theorem out_eq_scratch (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (Body.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h' => h0 ((hcond0_0 t).mp h')) ((hcond0_1 t).mpr h1) (blk0 m c t) (blk1 m c t) (blk2 m c t) (blk3 m c t)
      (outsAt0 m c (t.val - 1) (Nat.lt_of_le_of_lt (Nat.sub_le _ _) t.isLt)).2).trans
    (Body.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h' => h0 ((hcond0_0 t).mp h')) ((hcond0_1 t).mpr h1) (blk0 m c t) (blk1 m c t) (blk2 m c t) (blk3 m c t)
      (outsAt0 m c (t.val - 1) (Nat.lt_of_le_of_lt (Nat.sub_le _ _) t.isLt)).2).symm

/-- So at a row block's last tile, row `r` of the output block is row `256 (t / 8) + r`'s sum over all 16384 columns. -/
theorem out_eq (c : Dev nD) (t : Fin cfg0.N) (h1 : t.val % 8 = 7) (r : Fin 256) :
    (outsAt0 m c t.val t.isLt).1 (ix2 r (0 : Fin 1))
      = ∑ d ∈ Finset.range 16384, errN m c (256 * (t.val / 8) + r.val) d := by
  rw [out_eq_scratch m c t h1, scratch_eq m c t.val t.isLt r, h1]

end Cert.PhaseLoss.Acc

end
-- ==== Proof.Final.lean ====
/-
  The kernel's [4096, 1] result array after the region.

  The output block of row block `q` is written back once, after that row block's last column tile (point `8 q + 7`),
  when it holds the 256 row totals. Its block index is `(q, 0)`, so it lands on rows `256 q … 256 q + 255`; the sixteen
  write-backs cover all 4096 rows. Hence the array ends holding, at row `b`, row `b`'s squared phase error summed
  over all 16384 columns.
-/
import proofs.«110048_j74131135529095_1_alg».proof.Proof.Acc
import Idealize.ShloMosaic.Lib.Pipeline.Value

noncomputable section

namespace Cert.PhaseLoss.Final

open Idealize.ShloMosaic Idealize.ShloMosaic.TcCoe Idealize.ShloMosaic.ValueIdx Idealize.SL.Sem
open Idealize.ShloMosaic.Pipeline (Dat)
open Cert.KernelIdeal Cert.KernelIdeal.Gen Cert.PhaseLoss.Acc

variable (m : (ℓ : Loc nD τ sig) → Buf (Elt Ideal) ℓ)

/-- Row `b`'s total squared phase error, as an entry of a [4096, 1] column. -/
def totalsV (c : Dev nD) : FVec Ideal S4096x1 .f32 := fun i => ∑ d ∈ Finset.range 16384, errN m c (i 0).val d

/-- The same as contents of the kernel's result array. -/
abbrev totals (c : Dev nD) : Buf (Elt Ideal) ((c : Thread nD τ).loc main_v0) := totalsV m c

/-- The output window's block index at point `t` is (row block `t / 8`, 0): decided over the grid. -/
theorem idx4 : ∀ t : Fin cfg0.N, win0_4.index t (0 : Fin 2) = t.val / 8 ∧ win0_4.index t (1 : Fin 2) = 0 :=
  (by decide +kernel : ∀ t : Fin grid0.N, _)

set_option maxRecDepth 65536 in
/-- What a write-back writes is its block of the row totals. -/
theorem flushed_eq (c : Dev nD) (t : Fin cfg0.N) (hf : (cfg0.win 4).flush t = true) :
    (dats m 0 c).flushed 4 t = ((cfg0.win 4).blk t).view.read (Elt Ideal) (totals m c) := by
  have h7 : t.val % 8 = 7 := (flush0_4 t).mp hf
  funext j
  rw [View.read_apply]
  refine (congrFun (after0_4 m c t) ((cfg0.win 4).xinj (grid0.coords t) j)).trans ?_
  obtain ⟨r, u, hru⟩ : ∃ (r : Fin 256) (u : Fin 1), (cfg0.win 4).xinj (grid0.coords t) j = ix2 r u :=
    ⟨(cfg0.win 4).xinj (grid0.coords t) j 0, (cfg0.win 4).xinj (grid0.coords t) j 1, eq_ix2 _⟩
  obtain rfl : u = 0 := Subsingleton.elim _ _
  have hr : (j 0).val = r.val := congrArg (fun z => (z 0).val) hru
  rw [hru, out_eq m c t h7 r]
  show _ = totalsV m c _
  unfold totalsV
  have e : ((((cfg0.win 4).blk t).view.emb j) 0).val = 256 * (t.val / 8) + r.val := by
    show win0_4.index t (0 : Fin 2) * 256 + 1 * (j 0).val = _
    rw [(idx4 t).1, hr]; omega
  rw [e]

/-- An index of the array is in point `t`'s block iff each coordinate is in the block's range on its axis. -/
theorem mem_blk (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v0).slice (win0_4.rect t)).set ↔ _
  rw [View.set_slice_whole, Rect.mem_set_unit]
  exact Iff.rfl

/-- Every row is written back: row `b` by the last tile of row block `b / 256`. -/
theorem cover (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 128 := N_0
  obtain ⟨t, ht⟩ : ∃ t : Fin cfg0.N, t.val = 8 * ((i 0).val / 256) + 7 := ⟨⟨_, by rw [hN]; omega⟩, rfl⟩
  refine ⟨t, (flush0_4 t).mpr (by omega), ?_⟩
  rw [mem_blk]
  obtain ⟨q0, q1⟩ := idx4 t
  intro a
  match a with
  | ⟨0, _⟩ =>
    show win0_4.index t (0 : Fin 2) * 256 ≤ (i 0).val ∧ (i 0).val < win0_4.index t (0 : Fin 2) * 256 + 256
    rw [q0]; omega
  | ⟨1, _⟩ =>
    show win0_4.index t (1 : Fin 2) * 1 ≤ (i 1).val ∧ (i 1).val < win0_4.index t (1 : Fin 2) * 1 + 1
    rw [q1]; omega

/-- THE RESULT ARRAY after the region: the row totals. -/
theorem final (c : Dev nD) : (dats m 0 c).arrAt 4 cfg0.N = totals m c :=
  (dats m 0 c).arrAt_eq_of_cover 4 (totals m c) (flushed_eq m c) cover

end Cert.PhaseLoss.Final

end
-- ==== Proof.Tail.lean ====
/-
  What both programs do with the 4096 per-sample values.

  Each sample's value is multiplied by a factor chosen by its shape type (1.0 below one half, else the float nearest
  1.3), the 4096 products are summed from the zero word, the sum is divided by 4096 and doubled. The two programs spell
  this stretch with the same operations and the same words, so it is one function of the per-sample values and the
  shape types, and neither side's proof opens it.
-/
import Idealize.ShloMosaic.PureOps
import Idealize.ShloMosaic.PureOps.Ideal

noncomputable section

namespace Cert.PhaseLoss

open Idealize.ShloMosaic

/-- The per-sample vectors' shape and the scalar's. -/
abbrev Samples : Shape := ⟨1, ![4096]⟩
abbrev Scal : Shape := ⟨0, ![]⟩

/-- The weighted mean, doubled: `2 · ((0 + Σ_b p_b · factor(s_b)) / 4096)`. -/
def weighted {F : FTy → Type} [FloatOps F] (hb : Scal.BroadcastsInDim Samples (![] : Fin 0 → Fin Samples.rank))
    (hr : Samples.ReducesTo [0] Scal) (h0 : 0 < Scal.numel) (p s : FVec F Samples .f32) : FVec F Scal .f32 :=
  mulf (constant (F := F) Scal .f32 0x40000000#32)
    (Host.divf (F := F)
      (Host.reduceAdd (F := F)
        (mulf p (id (select (cmpf .olt s (broadcastInDim Samples ![] hb (constant (F := F) Scal .f32 0x3F000000#32)))
          (broadcastInDim Samples ![] hb (constant (F := F) Scal .f32 0x3F800000#32))
          (broadcastInDim Samples ![] hb (constant (F := F) Scal .f32 0x3FA66666#32)))))
        (constant (F := F) Scal .f32 0x00000000#32) hr h0)
      (constant (F := F) Scal .f32 0x45800000#32))

end Cert.PhaseLoss

end
-- ==== Proof.KernelRun.lean ====
/-
  The idealized kernel's run, read: its scalar result as a function of the arguments.
-/
import proofs.«110048_j74131135529095_1_alg».proof.Proof.Final
import proofs.«110048_j74131135529095_1_alg».proof.Proof.Tail
import Idealize.ShloMosaic.Lib.StableHlo.Run

noncomputable section

namespace Cert.PhaseLoss.KernelRun

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.PhaseLoss.Acc Cert.PhaseLoss.Final

variable {F : FTy → Type} [FloatOps F]

/-- The host stretch after the region, as a function of the region's result array and the shape types (any float
    instance): the column reshaped flat, divided by 16384, then the shared weighting. -/
def hostTail (out : FVec F S4096x1 .f32) (s : FVec F S4096 .f32) : FVec F S_ .f32 :=
  weighted bcast_S_S4096 reducesTo_S4096_S_d0 h_S_
    (Host.divf (shapeCast S4096 out shapeCasts_S4096x1_S4096)
      (broadcastInDim S4096 ![] bcast_S_S4096 (constant S_ .f32 0x46800000#32))) s

theorem tail_eq (m : (ℓ : Loc nD τ sig) → Buf (Elt F) ℓ) (c : Dev nD) :
    Pipeline.afterTail₀ cfgs (dats m) 0 (V0 m) [hostOps1, hostOps1_1, hostOps1_2] c main_v11
      = hostTail ((dats m 0 c).arrAt 4 cfg0.N) (m ((c : Thread nD τ).loc main_arg4)) := by
  unfold Pipeline.afterTail₀
  simp only [hostOps1, hostOps1_1, hostOps1_2, List.flatten_cons, List.flatten_nil, List.append_nil, List.cons_append,
    List.nil_append]
  after_results
  have hv0 : Pipeline.withArrays (cfgs 0).spec c (V0 m c) (fun w => (dats m 0 c).arrAt w (cfgs 0).N) (Proc.devRef .tc main_v0)
      = (dats m 0 c).arrAt 4 cfg0.N := Pipeline.withArrays_arr spec0 launch0.win.arr_inj c _ _ 4
  have ha4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [hv0, ha4]
  simp only [TRef.ofBuf, TRef.toBuf, cast_eq]
  rfl

/-- THE RUN, READ. Every weakly fair execution of the idealized kernel terminates with its scalar result at the host
    stretch of the row totals and the shape types, and its five arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = hostTail (F := Ideal) (totals m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v11 (Pipeline.mem_restRefs_of main_v11 (by decide) (by decide))).trans
          ((tail_eq m c).trans (congrArg (fun o => hostTail (F := Ideal) o (m ((c.tc : Thread nD τ).loc main_arg4))) (final m c))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c))),
        ((h c).2 main_arg4 (Pipeline.mem_restRefs_of main_arg4 (by decide) (by decide))).trans (W_main_arg4 m (dats m) c)⟩)
    (run_main m ρ)

end Cert.PhaseLoss.KernelRun

end
-- ==== Proof.RefValue.lean ====
/-
  The reference's result as a function of its arguments.

  The reference computes, per sample, the mean squared sine error plus the mean squared cosine error — each a row sum
  from the zero word divided by 16384 — and then applies the shared weighting. Read one operation at a time, its
  per-sample value at sample `b` is `(0 + Σ_k (x0 - x2)²) / 16384 + (0 + Σ_k (x1 - x3)²) / 16384` along row `b`.
-/
import proofs.«110048_j74131135529095_1_alg».proof.Defs
import proofs.«110048_j74131135529095_1_alg».proof.Proof.Gen.ReferenceIdeal.Run
import proofs.«110048_j74131135529095_1_alg».proof.Proof.Gen.ReferenceIdeal.Read
import proofs.«110048_j74131135529095_1_alg».proof.Proof.Tail
import Idealize.ShloMosaic.Lib.ValueIdx

noncomputable section

namespace Cert.PhaseLoss.Ref

open Idealize.ShloMosaic Idealize.ShloMosaic.ValueIdx
open Cert.ReferenceIdeal Cert.ReferenceIdeal.Gen Cert.ReferenceIdeal.Read

/-- The reference's result is the shared weighting of its per-sample value, at any float instance: the same
    operations in the same order. -/
theorem result_eq {F : FTy → Type} [FloatOps F] (x0 x1 x2 x3 : FVec F S4096x16384 .f32) (x4 : FVec F S4096 .f32) :
    val_main_v18 (F := F) x0 x1 x2 x3 x4
      = weighted bcast_S_S4096 reducesTo_S4096_S_d0 h_S_ (val_main_v13 (F := F) x0 x1 x2 x3) x4 := rfl

/-- The entry a row reduction reads at sample `b`, column `k`, is `(b, k)`. -/
theorem idx2_eq (b : Fin 4096) (k : Fin 16384) : idx_main_v2 (ix1 b) k = ix2 b k :=
  funext fun a => Fin.ext (by match a with | ⟨0, _⟩ => rfl | ⟨1, _⟩ => rfl)
theorem idx7_eq (b : Fin 4096) (k : Fin 16384) : idx_main_v7 (ix1 b) k = ix2 b k :=
  funext fun a => Fin.ext (by match a with | ⟨0, _⟩ => rfl | ⟨1, _⟩ => rfl)

/-- The per-sample value at sample `b`, over the extended reals. -/
theorem perSample_apply (x0 x1 x2 x3 : FVec Ideal S4096x16384 .f32) (b : Fin 4096) :
    val_main_v13 (F := Ideal) x0 x1 x2 x3 (ix1 b)
      = Ideal.div (Ideal.ofBits .f32 0x00000000#32 + ∑ k : Fin 16384, (x0 (ix2 b k) - x2 (ix2 b k)) * (x0 (ix2 b k) - x2 (ix2 b k)))
            (Ideal.ofBits .f32 0x46800000#32)
        + Ideal.div (Ideal.ofBits .f32 0x00000000#32 + ∑ k : Fin 16384, (x1 (ix2 b k) - x3 (ix2 b k)) * (x1 (ix2 b k) - x3 (ix2 b k)))
            (Ideal.ofBits .f32 0x46800000#32) := by
  rw [val_main_v13_apply, val_main_v4_apply, val_main_v9_apply, val_main_v2_apply, val_main_v7_apply, val_main_v3_apply,
    val_main_v8_apply]
  simp only [val_main_v1_apply, val_main_v0_apply, val_main_v6_apply, val_main_v5_apply, val_main_cst_apply,
    val_main_cst_1_apply, val_main_cst_0_apply, val_main_cst_2_apply, idx2_eq, idx7_eq, Ideal.addf_def, Ideal.subf_def,
    Ideal.mulf_def, Ideal.hostDivf_def, Ideal.ofBits_def]

end Cert.PhaseLoss.Ref

end
-- ==== Proof.Bridge.lean ====
/-
  The two per-sample values are one.

  The kernel's per-sample value is its row total divided by 16384; the reference's is the row's mean squared sine
  error plus its mean squared cosine error. A row total of `(x0 - x2)² + (x1 - x3)²` is the sum of the two rows of
  squares, and division by 16384 distributes over that sum of two extended reals. So the two programs hand the same
  4096 values to the same weighting, and their results agree.
-/
import proofs.«110048_j74131135529095_1_alg».proof.Proof.KernelRun
import proofs.«110048_j74131135529095_1_alg».proof.Proof.RefValue
import proofs.«110048_j74131135529095_1_alg».proof.Proof.LibColumn

noncomputable section

namespace Cert.PhaseLoss.Bridge

open Idealize.ShloMosaic Idealize.ShloMosaic.TcCoe Idealize.ShloMosaic.ValueIdx Idealize.SL.Sem
open Cert.PhaseLoss.Acc Cert.PhaseLoss.Final

variable (m : (ℓ : Loc Cert.KernelIdeal.nD Cert.KernelIdeal.τ Cert.KernelIdeal.sig) → Buf (Elt Ideal) ℓ)

/-- The kernel's per-sample vector: the result column reshaped flat and divided by 16384. -/
abbrev kernelPerSample (c : Dev Cert.KernelIdeal.nD) : FVec Ideal Cert.KernelIdeal.S4096 .f32 :=
  Host.divf (F := Ideal) (shapeCast Cert.KernelIdeal.S4096 (totals m c) Cert.KernelIdeal.Facts₀.shapeCasts_S4096x1_S4096)
    (broadcastInDim Cert.KernelIdeal.S4096 ![] Cert.KernelIdeal.Facts₀.bcast_S_S4096 (constant (F := Ideal) Cert.KernelIdeal.S_ .f32 0x46800000#32))

/-- At sample `b` it is row `b`'s total squared phase error over 16384. -/
theorem kernelPerSample_apply (c : Dev Cert.KernelIdeal.nD) (b : Fin 4096) :
    kernelPerSample m c (ix1 b)
      = Ideal.div (∑ k : Fin 16384, sq (sinP m c) (cosP m c) (sinT m c) (cosT m c) (ix2 b k))
          (Ideal.ofBits .f32 0x46800000#32) := by
  show Ideal.div (shapeCast Cert.KernelIdeal.S4096 (totalsV m c) Cert.KernelIdeal.Facts₀.shapeCasts_S4096x1_S4096 (ix1 b)) (Ideal.ofBits .f32 0x46800000#32) = _
  rw [shapeCast_a1_a_apply (a := 4096) (totalsV m c) _ b]
  show Ideal.div (∑ d ∈ Finset.range 16384, errN m c b.val d) _ = _
  rw [rowTotal]

/-- The reference's per-sample vector of the same arguments is the kernel's. -/
theorem perSample_eq (c : Dev Cert.KernelIdeal.nD) :
    Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      = kernelPerSample m c := by
  funext i
  obtain ⟨b, rfl⟩ : ∃ b : Fin 4096, i = ix1 b := ⟨i 0, eq_ix1 i⟩
  rw [Ref.perSample_apply, kernelPerSample_apply]
  exact (mean_split (sinP m c) (cosP m c) (sinT m c) (cosT m c) b).symm

/-- So the reference's result of the same arguments is the kernel's. -/
theorem result_eq (c : Dev Cert.KernelIdeal.nD) :
    Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      = KernelRun.hostTail (F := Ideal) (totals m c) (m ((c.tc : Thread Cert.KernelIdeal.nD Cert.KernelIdeal.τ).loc Cert.KernelIdeal.main_arg4)) := by
  rw [Ref.result_eq, perSample_eq m c]
  rfl

end Cert.PhaseLoss.Bridge

end
-- ==== Proof.lean ====
/-
  The kernel sums, per sample, the squared phase error `(sin_pred - sin_true)² + (cos_pred - cos_true)²` over 16384
  columns in eight tiles of 2048, accumulating in a scratch column and copying it out at the last tile; the host
  then divides each total by 16384, weights it by a factor chosen by the sample's shape type, averages over the 4096
  samples and doubles. The reference takes the mean squared sine error and the mean squared cosine error of each
  sample separately, adds them, and applies the same weighting.

  Over the extended reals the two agree: addition is a commutative monoid, so a row's total does not depend on the
  tiling nor on summing the two squares together or apart, and division by the positive real 16384 distributes over
  the sum of the two row sums. The frames are the generated ones (the reference's is its generated run with the
  result dropped); the idealization rewrote nothing.
-/
import proofs.«110048_j74131135529095_1_alg».proof.Defs
import proofs.«110048_j74131135529095_1_alg».proof.Proof.Gen.Kernel
import proofs.«110048_j74131135529095_1_alg».proof.Proof.Gen.Kernel.Frame
import proofs.«110048_j74131135529095_1_alg».proof.Proof.Gen.KernelIdeal
import proofs.«110048_j74131135529095_1_alg».proof.Proof.Gen.KernelIdeal.Frame
import proofs.«110048_j74131135529095_1_alg».proof.Proof.Gen.ReferenceIdeal
import proofs.«110048_j74131135529095_1_alg».proof.Proof.Gen.ReferenceIdeal.Run
import proofs.«110048_j74131135529095_1_alg».proof.Proof.Gen.ReferenceIdeal.Read
import proofs.«110048_j74131135529095_1_alg».proof.Proof.Gen.Pre_finite_inputs
import proofs.«110048_j74131135529095_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the weighted, averaged, doubled per-sample squared phase error of the same
    arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.PhaseLoss.KernelRun.hostTail (F := Ideal) (Cert.PhaseLoss.Final.totals m c)
    (m ((c.tc : Thread Cert.KernelIdeal.nD Cert.KernelIdeal.τ).loc Cert.KernelIdeal.main_arg4)), Cert.PhaseLoss.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v18_eq _ _ _ _ _).trans (Cert.PhaseLoss.Bridge.result_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
